-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelPayload.lean ====
/-
  What one grid point of each kernel stores, read at an entry of its 5000 x 128 block.

  The body loads a 5000-row block of the node features and of the aggregated features, both whole weight
  matrices and the bias row, rounds the four matrices to bf16 (no change on the extended reals), multiplies into
  zero accumulators, adds the two products, adds the bias row to every row, and (first kernel only) takes the
  maximum with zero. On the extended reals a matrix product into a zero accumulator is the plain sum over the
  contracted axis, so entry (p, q) of the stored block is

      (Σ_k x[p, k] · ws[k, q]  +  Σ_k hn[p, k] · wn[k, q])  +  b[0, q]

  and its maximum with the zero word's value for the first kernel.
-/
import proofs.«181961_j51084341019062_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx

/-! ## The block product at an entry -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 by 128 x 128 product into a zero accumulator: entry (p, q) is the sum over the 128 contracted
    features of row p of the left operand times column q of the right. -/
theorem matmul_blk_apply {φ₁ φ₂ : FTy} (l : FVec Ideal S5000x128 φ₁) (w : FVec Ideal S128x128 φ₂) (p : Fin 5000) (q : Fin 128) :
    FloatOps.matmul dot_S5000x128_S128x128_S5000x128_1_0_0_1_n_n none l w (constant S5000x128 .f32 0x00000000#32) (ix2 p q)
      = ∑ k : Fin 128, l (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The stored blocks -/

/-- First kernel: the rectified layer on a block. -/
theorem k0_pay1_apply (x hn : Vec Ideal S5000x128 .f32) (ws wn : Vec Ideal S128x128 .f32) (b : Vec Ideal S1x128 .f32)
    (p : Fin 5000) (q : Fin 128) :
    k0_pay1 (F := Ideal) x hn ws wn b (ix2 p q)
      = max ((∑ k : Fin 128, x (ix2 p k) * ws (ix2 k q) + ∑ k : Fin 128, hn (ix2 p k) * wn (ix2 k q)) + b (ix2 (0 : Fin 1) q))
          (Ideal.ofBits .f32 0x00000000#32) := by
  unfold k0_pay1
  rw [shapeCast_self, shapeCast_self]
  show max ((FloatOps.matmul (F := Ideal) dot_S5000x128_S128x128_S5000x128_1_0_0_1_n_n none (truncf .bf16 x bitsLt_bf16_f32) (truncf .bf16 ws bitsLt_bf16_f32) (constant S5000x128 .f32 0x00000000#32) (ix2 p q)
        + FloatOps.matmul (F := Ideal) dot_S5000x128_S128x128_S5000x128_1_0_0_1_n_n none (truncf .bf16 hn bitsLt_bf16_f32) (truncf .bf16 wn bitsLt_bf16_f32) (constant S5000x128 .f32 0x00000000#32) (ix2 p q))
      + (broadcastTo S5000x128 b broadcasts_S1x128_S5000x128 : FVec Ideal S5000x128 .f32) (ix2 p q)) (Ideal.ofBits .f32 0x00000000#32) = _
  rw [matmul_blk_apply, matmul_blk_apply, broadcastTo_1b_ab_apply]
  rfl

/-- Second kernel: the layer on a block, no rectifier. -/
theorem k1_pay1_apply (x hn : Vec Ideal S5000x128 .f32) (ws wn : Vec Ideal S128x128 .f32) (b : Vec Ideal S1x128 .f32)
    (p : Fin 5000) (q : Fin 128) :
    k1_pay1 (F := Ideal) x hn ws wn b (ix2 p q)
      = (∑ k : Fin 128, x (ix2 p k) * ws (ix2 k q) + ∑ k : Fin 128, hn (ix2 p k) * wn (ix2 k q)) + b (ix2 (0 : Fin 1) q) := by
  unfold k1_pay1
  rw [shapeCast_self, shapeCast_self, shapeCast_self]
  show (FloatOps.matmul (F := Ideal) dot_S5000x128_S128x128_S5000x128_1_0_0_1_n_n none (truncf .bf16 x bitsLt_bf16_f32) (truncf .bf16 ws bitsLt_bf16_f32) (constant S5000x128 .f32 0x00000000#32) (ix2 p q)
        + FloatOps.matmul (F := Ideal) dot_S5000x128_S128x128_S5000x128_1_0_0_1_n_n none (truncf .bf16 hn bitsLt_bf16_f32) (truncf .bf16 wn bitsLt_bf16_f32) (constant S5000x128 .f32 0x00000000#32) (ix2 p q))
      + (broadcastTo S5000x128 b broadcasts_S1x128_S5000x128 : FVec Ideal S5000x128 .f32) (ix2 p q) = _
  rw [matmul_blk_apply, matmul_blk_apply, broadcastTo_1b_ab_apply]
  rfl

end Cert.KernelIdeal.Payload

end
-- ==== Proof.DenseSpec.lean ====
/-
  One GraphSAGE dense layer as a function of whole arrays, index by index, on the extended reals.

  For node features `x`, aggregated neighbour features `hn` (both [100000, 128]), weights `ws`, `wn`
  ([128, 128]) and a bias `b` ([128]), entry (r, j) of the layer is

      (Σ_k x[r, k] · ws[k, j]  +  Σ_k hn[r, k] · wn[k, j])  +  b[j],

  the two sums over the 128 input features, added in this order. `denseRelu` takes the maximum of that with
  the zero word's value. Row r of the result depends on row r of `x` and `hn` only, which is why a kernel
  that computes 5000 rows at a time from the same 5000 rows of its inputs computes the same array.
-/
import Idealize.ShloMosaic.PureOps.Ideal
import Idealize.ShloMosaic.Lib.ValueIdx

noncomputable section

namespace Cert.Sage

open Idealize.ShloMosaic Idealize.ShloMosaic.ValueIdx

/-- Node features: 100000 nodes, 128 features. -/
abbrev SNodes : Shape := ⟨2, ![100000, 128]⟩
/-- A weight matrix: 128 input features by 128 output features. -/
abbrev SWeight : Shape := ⟨2, ![128, 128]⟩
/-- A bias vector. -/
abbrev SBias : Shape := ⟨1, ![128]⟩

/-- Entry (r, j) of a dense layer: self term plus neighbour term, then the bias. -/
def dense (x hn : FVec Ideal SNodes .f32) (ws wn : FVec Ideal SWeight .f32) (b : FVec Ideal SBias .f32) :
    FVec Ideal SNodes .f32 := fun i =>
  (∑ k : Fin 128, x (ix2 (i 0) k) * ws (ix2 k (i 1)) + ∑ k : Fin 128, hn (ix2 (i 0) k) * wn (ix2 k (i 1)))
    + b (ix1 (i 1))

/-- The same followed by the rectifier: the maximum with the value of the all-zero f32 word. -/
def denseRelu (x hn : FVec Ideal SNodes .f32) (ws wn : FVec Ideal SWeight .f32) (b : FVec Ideal SBias .f32) :
    FVec Ideal SNodes .f32 := fun i =>
  max (dense x hn ws wn b i) (Ideal.ofBits .f32 0x00000000#32)

theorem dense_apply (x hn : FVec Ideal SNodes .f32) (ws wn : FVec Ideal SWeight .f32) (b : FVec Ideal SBias .f32)
    (r : Fin 100000) (j : Fin 128) :
    dense x hn ws wn b (ix2 r j)
      = (∑ k : Fin 128, x (ix2 r k) * ws (ix2 k j) + ∑ k : Fin 128, hn (ix2 r k) * wn (ix2 k j)) + b (ix1 j) := rfl

theorem denseRelu_apply (x hn : FVec Ideal SNodes .f32) (ws wn : FVec Ideal SWeight .f32) (b : FVec Ideal SBias .f32)
    (r : Fin 100000) (j : Fin 128) :
    denseRelu x hn ws wn b (ix2 r j)
      = max ((∑ k : Fin 128, x (ix2 r k) * ws (ix2 k j) + ∑ k : Fin 128, hn (ix2 r k) * wn (ix2 k j)) + b (ix1 j))
          (Ideal.ofBits .f32 0x00000000#32) := rfl

end Cert.Sage

end
-- ==== Proof.KernelBlocks.lean ====
/-
  From blocks to arrays: each kernel region's result array as one dense layer of the arrays it is entered with.

  A region runs its body at 20 grid points. At point t the first, second and sixth windows hold rows
  5000 t … 5000 t + 4999 of their arrays, the weight and bias windows hold their whole arrays, and the body stores
  the layer of those rows into the sixth window's block, which is written back to the same rows of the result.
  Entry (5000 t + p, q) of the layer depends on row 5000 t + p of the two feature arrays only, so what point t
  writes back is block t of the layer of the whole arrays; the 20 blocks tile the 100000 rows, so the result array
  is that layer. The entry contents `V` of the region are a parameter: the first region is entered after the
  first aggregation, the second after the second.
-/
import proofs.«181961_j51084341019062_1_alg».proof.Proof.Gen.KernelIdeal.Frame
import proofs.«181961_j51084341019062_1_alg».proof.Proof.KernelPayload
import proofs.«181961_j51084341019062_1_alg».proof.Proof.DenseSpec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Payload Cert.Sage Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The bias window's array is one row; the layer reads it by column. -/
abbrev biasRow (B : FVec Ideal S1x128 .f32) : FVec Ideal SBias .f32 := fun j => B (ix2 (0 : Fin 1) (j 0))

/-! ## One grid point: the stored block is the layer's block

Stated over plain vectors: `x`, `hn` are the 5000 rows starting at row 5000 t of `X`, `Hn`; the weights and the bias
row are the whole arrays. -/

theorem point_relu (X Hn : FVec Ideal SNodes .f32) (Ws Wn : FVec Ideal SWeight .f32) (B : FVec Ideal S1x128 .f32)
    (x hn : Vec Ideal S5000x128 .f32) (ws wn : Vec Ideal S128x128 .f32) (b : Vec Ideal S1x128 .f32) (t : Nat)
    (hx : ∀ (p : Fin 5000) (k : Fin 128) (r : Fin 100000), r.val = t * 5000 + p.val → x (ix2 p k) = X (ix2 r k))
    (hhn : ∀ (p : Fin 5000) (k : Fin 128) (r : Fin 100000), r.val = t * 5000 + p.val → hn (ix2 p k) = Hn (ix2 r k))
    (hws : ∀ (k q : Fin 128), ws (ix2 k q) = Ws (ix2 k q)) (hwn : ∀ (k q : Fin 128), wn (ix2 k q) = Wn (ix2 k q))
    (hb : ∀ q : Fin 128, b (ix2 (0 : Fin 1) q) = B (ix2 (0 : Fin 1) q))
    (y : S5000x128.Idx) (i : SNodes.Idx) (hi0 : (i 0).val = t * 5000 + (y 0).val) (hi1 : (i 1).val = (y 1).val) :
    k0_pay1 (F := Ideal) x hn ws wn b y = denseRelu X Hn Ws Wn (biasRow B) i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  have hr : r.val = t * 5000 + p.val := hi0
  obtain rfl : j = q := Fin.ext hi1
  rw [k0_pay1_apply, denseRelu_apply]
  simp only [hx p _ r hr, hhn p _ r hr, hws, hwn, hb]

theorem point_plain (X Hn : FVec Ideal SNodes .f32) (Ws Wn : FVec Ideal SWeight .f32) (B : FVec Ideal S1x128 .f32)
    (x hn : Vec Ideal S5000x128 .f32) (ws wn : Vec Ideal S128x128 .f32) (b : Vec Ideal S1x128 .f32) (t : Nat)
    (hx : ∀ (p : Fin 5000) (k : Fin 128) (r : Fin 100000), r.val = t * 5000 + p.val → x (ix2 p k) = X (ix2 r k))
    (hhn : ∀ (p : Fin 5000) (k : Fin 128) (r : Fin 100000), r.val = t * 5000 + p.val → hn (ix2 p k) = Hn (ix2 r k))
    (hws : ∀ (k q : Fin 128), ws (ix2 k q) = Ws (ix2 k q)) (hwn : ∀ (k q : Fin 128), wn (ix2 k q) = Wn (ix2 k q))
    (hb : ∀ q : Fin 128, b (ix2 (0 : Fin 1) q) = B (ix2 (0 : Fin 1) q))
    (y : S5000x128.Idx) (i : SNodes.Idx) (hi0 : (i 0).val = t * 5000 + (y 0).val) (hi1 : (i 1).val = (y 1).val) :
    k1_pay1 (F := Ideal) x hn ws wn b y = dense X Hn Ws Wn (biasRow B) i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  have hr : r.val = t * 5000 + p.val := hi0
  obtain rfl : j = q := Fin.ext hi1
  rw [k1_pay1_apply, dense_apply]
  simp only [hx p _ r hr, hhn p _ r hr, hws, hwn, hb]

/-! ## The first region -/

/-- The printed index maps over the grid: row blocks move with the point, weights and bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node-feature window's block at point t: rows 5000 t onward of the features the region is entered with. -/
theorem blk0_x (c : Dev nD) (t : Fin cfg0.N) (p : Fin 5000) (k : Fin 128) (r : Fin 100000) (hr : r.val = t.val * 5000 + p.val) :
    (iblk0 V c 0 t : Vec Ideal S5000x128 .f32) (ix2 p k) = (V c main_arg0 : FVec Ideal S100000x128 .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The aggregated-feature window's block at point t: the same rows of the aggregated features. -/
theorem blk0_hn (c : Dev nD) (t : Fin cfg0.N) (p : Fin 5000) (k : Fin 128) (r : Fin 100000) (hr : r.val = t.val * 5000 + p.val) :
    (iblk0 V c 1 t : Vec Ideal S5000x128 .f32) (ix2 p k) = (V c main_v18 : FVec Ideal S100000x128 .f32) (ix2 r k) := by
  obtain ⟨-, -, e0, e1, -⟩ := idx_facts0 t
  unfold iblk0
  rw [View.read_apply]
  show V c main_v18 _ = V c main_v18 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The self-weight window holds the whole matrix at every point. -/
theorem blk0_ws (c : Dev nD) (t : Fin cfg0.N) (k q : Fin 128) :
    (iblk0 V c 2 t : Vec Ideal S128x128 .f32) (ix2 k q) = (V c main_arg3 : FVec Ideal S128x128 .f32) (ix2 k q) := by
  obtain ⟨-, -, -, -, e0, e1, -⟩ := idx_facts0 t
  unfold iblk0
  rw [View.read_apply]
  show V c main_arg3 _ = V c main_arg3 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The neighbour-weight window holds the whole matrix at every point. -/
theorem blk0_wn (c : Dev nD) (t : Fin cfg0.N) (k q : Fin 128) :
    (iblk0 V c 3 t : Vec Ideal S128x128 .f32) (ix2 k q) = (V c main_arg4 : FVec Ideal S128x128 .f32) (ix2 k q) := by
  obtain ⟨-, -, -, -, -, -, e0, e1, -⟩ := idx_facts0 t
  unfold iblk0
  rw [View.read_apply]
  show V c main_arg4 _ = V c main_arg4 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The bias window holds the whole row at every point. -/
theorem blk0_b (c : Dev nD) (t : Fin cfg0.N) (q : Fin 128) :
    (iblk0 V c 4 t : Vec Ideal S1x128 .f32) (ix2 (0 : Fin 1) q) = (V c main_v19 : FVec Ideal S1x128 .f32) (ix2 (0 : Fin 1) q) := by
  obtain ⟨-, -, -, -, -, -, -, -, e0, e1, -⟩ := idx_facts0 t
  unfold iblk0
  rw [View.read_apply]
  show V c main_v19 _ = V c main_v19 _
  congr 1
  funext a
  apply Fin.ext
  match a with
  | ⟨0, _⟩ => show win0_4.index t 0 * 1 + 1 * 0 = 0; rw [e0]
  | ⟨1, _⟩ => show win0_4.index t 1 * 128 + 1 * q.val = q.val; rw [e1]; omega

/-- The layer of the arrays the first region is entered with. -/
abbrev layer0 (c : Dev nD) : FVec Ideal SNodes .f32 :=
  denseRelu (V c main_arg0) (V c main_v18) (V c main_arg3) (V c main_arg4) (biasRow (V c main_v19))

/-- What point t writes back is block t of that layer. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts0 t
  funext j
  rw [View.read_apply]
  exact point_relu (V c main_arg0) (V c main_v18) (V c main_arg3) (V c main_arg4) (V c main_v19)
    (iblk0 V c 0 t) (iblk0 V c 1 t) (iblk0 V c 2 t) (iblk0 V c 3 t) (iblk0 V c 4 t) t.val
    (fun p k r hr => blk0_x V c t p k r hr) (fun p k r hr => blk0_hn V c t p k r hr)
    (fun k q => blk0_ws V c t k q) (fun k q => blk0_wn V c t k q) (fun q => blk0_b V c t q)
    j (((cfg0.win 5).blk t).view.emb j)
    (by show win0_5.index t 0 * 5000 + 1 * (j 0).val = t.val * 5000 + (j 0).val; rw [e0]; omega)
    (by show win0_5.index t 1 * 128 + 1 * (j 1).val = (j 1).val; rw [e1]; omega)

/-- An index of the result array is in point t's block iff its row is among that point's 5000 rows. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every row block is some point's. -/
theorem onto0 : ∀ q0 : Fin 20, ∃ t : Fin cfg0.N, win0_5.index t = ![q0.val, 0] :=
  (by decide +kernel : ∀ q0 : Fin 20, ∃ t : Fin grid0.N, win0_5.index t = ![q0.val, 0])

/-- The 20 blocks tile the result array: row r is in block r / 5000. -/
theorem cover0 (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first region's result array is the rectified layer of the arrays it is entered with. -/
theorem final0 (c : Dev nD) : (dat0 V c).arrAt 5 cfg0.N = layer0 V c :=
  (dat0 V c).arrAt_eq_of_cover 5 (layer0 V c) (fun t _ => flushed0 V c t) cover0

/-! ## The second region -/

/-- The printed index maps over the second grid: the same pattern. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The hidden-feature window's block at point t: rows 5000 t onward of the first region's result. -/
theorem blk1_x (c : Dev nD) (t : Fin cfg1.N) (p : Fin 5000) (k : Fin 128) (r : Fin 100000) (hr : r.val = t.val * 5000 + p.val) :
    (iblk1 V c 0 t : Vec Ideal S5000x128 .f32) (ix2 p k) = (V c main_v20 : FVec Ideal S100000x128 .f32) (ix2 r k) := by
  obtain ⟨e0, e1, -⟩ := idx_facts1 t
  unfold iblk1
  rw [View.read_apply]
  show V c main_v20 _ = V c main_v20 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The aggregated hidden features' block at point t. -/
theorem blk1_hn (c : Dev nD) (t : Fin cfg1.N) (p : Fin 5000) (k : Fin 128) (r : Fin 100000) (hr : r.val = t.val * 5000 + p.val) :
    (iblk1 V c 1 t : Vec Ideal S5000x128 .f32) (ix2 p k) = (V c main_v39 : FVec Ideal S100000x128 .f32) (ix2 r k) := by
  obtain ⟨-, -, e0, e1, -⟩ := idx_facts1 t
  unfold iblk1
  rw [View.read_apply]
  show V c main_v39 _ = V c main_v39 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

/-- The second self-weight matrix, whole at every point. -/
theorem blk1_ws (c : Dev nD) (t : Fin cfg1.N) (k q : Fin 128) :
    (iblk1 V c 2 t : Vec Ideal S128x128 .f32) (ix2 k q) = (V c main_arg6 : FVec Ideal S128x128 .f32) (ix2 k q) := by
  obtain ⟨-, -, -, -, e0, e1, -⟩ := idx_facts1 t
  unfold iblk1
  rw [View.read_apply]
  show V c main_arg6 _ = V c main_arg6 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- The second neighbour-weight matrix, whole at every point. -/
theorem blk1_wn (c : Dev nD) (t : Fin cfg1.N) (k q : Fin 128) :
    (iblk1 V c 3 t : Vec Ideal S128x128 .f32) (ix2 k q) = (V c main_arg7 : FVec Ideal S128x128 .f32) (ix2 k q) := by
  obtain ⟨-, -, -, -, -, -, e0, e1, -⟩ := idx_facts1 t
  unfold iblk1
  rw [View.read_apply]
  show V c main_arg7 _ = V c main_arg7 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- The second bias row, whole at every point. -/
theorem blk1_b (c : Dev nD) (t : Fin cfg1.N) (q : Fin 128) :
    (iblk1 V c 4 t : Vec Ideal S1x128 .f32) (ix2 (0 : Fin 1) q) = (V c main_v40 : FVec Ideal S1x128 .f32) (ix2 (0 : Fin 1) q) := by
  obtain ⟨-, -, -, -, -, -, -, -, e0, e1, -⟩ := idx_facts1 t
  unfold iblk1
  rw [View.read_apply]
  show V c main_v40 _ = V c main_v40 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- The layer of the arrays the second region is entered with. -/
abbrev layer1 (c : Dev nD) : FVec Ideal SNodes .f32 :=
  dense (V c main_v20) (V c main_v39) (V c main_arg6) (V c main_arg7) (biasRow (V c main_v40))

/-- What point t of the second region writes back is block t of that layer. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts1 t
  funext j
  rw [View.read_apply]
  exact point_plain (V c main_v20) (V c main_v39) (V c main_arg6) (V c main_arg7) (V c main_v40)
    (iblk1 V c 0 t) (iblk1 V c 1 t) (iblk1 V c 2 t) (iblk1 V c 3 t) (iblk1 V c 4 t) t.val
    (fun p k r hr => blk1_x V c t p k r hr) (fun p k r hr => blk1_hn V c t p k r hr)
    (fun k q => blk1_ws V c t k q) (fun k q => blk1_wn V c t k q) (fun q => blk1_b V c t q)
    j (((cfg1.win 5).blk t).view.emb j)
    (by show win1_5.index t 0 * 5000 + 1 * (j 0).val = t.val * 5000 + (j 0).val; rw [e0]; omega)
    (by show win1_5.index t 1 * 128 + 1 * (j 1).val = (j 1).val; rw [e1]; omega)

theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

theorem onto1 : ∀ q0 : Fin 20, ∃ t : Fin cfg1.N, win1_5.index t = ![q0.val, 0] :=
  (by decide +kernel : ∀ q0 : Fin 20, ∃ t : Fin grid1.N, win1_5.index t = ![q0.val, 0])

theorem cover1 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region's result array is the layer of the arrays it is entered with. -/
theorem final1 (c : Dev nD) : (dat1 V c).arrAt 5 cfg1.N = layer1 V c :=
  (dat1 V c).arrAt_eq_of_cover 5 (layer1 V c) (fun t _ => flushed1 V c t) cover1

end Cert.KernelIdeal.Blocks

end
-- ==== Proof.KernelHost.lean ====
/-
  The host operations around the two kernel regions, read back.

  Before each region the program computes, on the host, the mean aggregation of a feature array over incoming
  edges — gather the source rows (a negative index wrapped by 100000), scatter-add them into the destination rows,
  divide by the in-degree clamped below at one — and reshapes the layer's bias to one row. The first stretch
  aggregates the input features; the second aggregates the first region's result. The arguments are written by
  nothing. `meanAgg` names the aggregation's term once, as a function of the features and the two index arrays.
-/
import proofs.«181961_j51084341019062_1_alg».proof.Proof.Gen.KernelIdeal.Frame
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen Idealize.ShloMosaic.ValueIdx

variable {F : FTy → Type} [FloatOps F]

/-- The mean over incoming edges of the source nodes' feature rows: the sum scattered into each destination row,
    divided by the number of incoming edges or by one where there are none. -/
def meanAgg (h : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 dst)
            (broadcastInDim S1600000 ![] bcast_S_S1600000 (constant (F := F) S_ .f32 0x3F800000#32)))
          (broadcastInDim S100000 ![] bcast_S_S100000 (constant (F := F) S_ .f32 0x3F800000#32)))))

variable (m : (ℓ : Loc nD τ sig) → Buf (Elt F) ℓ) (ρ : Dev nD → PrngReg)

/-! ## At the first region's entry -/

set_option maxHeartbeats 4000000 in
theorem V1_arg0 (c : Dev nD) : V1 m ρ c main_arg0 = m ((c : Thread nD τ).loc main_arg0) := by
  show StableHlo.after hostOps0 (W0 m ρ c) (Proc.devRef .tc main_arg0) = _
  after_results_simp
set_option maxHeartbeats 4000000 in
theorem V1_arg3 (c : Dev nD) : V1 m ρ c main_arg3 = m ((c : Thread nD τ).loc main_arg3) := by
  show StableHlo.after hostOps0 (W0 m ρ c) (Proc.devRef .tc main_arg3) = _
  after_results_simp
set_option maxHeartbeats 4000000 in
theorem V1_arg4 (c : Dev nD) : V1 m ρ c main_arg4 = m ((c : Thread nD τ).loc main_arg4) := by
  show StableHlo.after hostOps0 (W0 m ρ c) (Proc.devRef .tc main_arg4) = _
  after_results_simp

set_option maxHeartbeats 4000000 in
/-- The second window's array: the aggregation of the input features. -/
theorem V1_agg (c : Dev nD) : V1 m ρ c main_v18
    = meanAgg (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
/-- The fifth window's array: the first bias as one row. -/
theorem V1_bias (c : Dev nD) : V1 m ρ c main_v19
    = shapeCast S1x128 (m ((c : Thread nD τ).loc main_arg5)) shapeCasts_S128_S1x128 := by
  show StableHlo.after hostOps0 (W0 m ρ c) (Proc.devRef .tc main_v19) = _
  after_results_simp
  rfl

/-! ## Between the regions

The first region writes only its result; the arguments keep their launch contents through it, and the second
stretch of host operations starts from there. -/

set_option maxHeartbeats 4000000 in
theorem W1_arg1 (c : Dev nD) : W1 m ρ c (Proc.devRef .tc main_arg1) = m ((c : Thread nD τ).loc main_arg1) := by
  show StableHlo.after hostOps0 (W0 m ρ c) (Proc.devRef .tc main_arg1) = _
  after_results_simp
set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp
set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp
set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp
set_option maxHeartbeats 4000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-- The hidden features: what the first region's write-backs leave in its result array. -/
theorem W2_hidden (c : Dev nD) : W2 m ρ c (Proc.devRef .tc main_v20) = (dat0 (V1 m ρ) c).arrAt 5 cfg0.N :=
  W2_arr m ρ c 5

/-! ## At the second region's entry -/

set_option maxHeartbeats 4000000 in
theorem V3_hidden (c : Dev nD) : V3 m ρ c main_v20 = W2 m ρ c (Proc.devRef .tc main_v20) := by
  show StableHlo.after hostOps1 (W2 m ρ c) (Proc.devRef .tc main_v20) = _
  after_results_simp
set_option maxHeartbeats 4000000 in
theorem V3_arg6 (c : Dev nD) : V3 m ρ c main_arg6 = m ((c : Thread nD τ).loc main_arg6) := by
  show StableHlo.after hostOps1 (W2 m ρ c) (Proc.devRef .tc main_arg6) = _
  after_results_simp
  exact W2_arg6 m ρ c
set_option maxHeartbeats 4000000 in
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c

set_option maxHeartbeats 4000000 in
/-- The second window's array: the aggregation of the hidden features. -/
theorem V3_agg (c : Dev nD) : V3 m ρ c main_v39
    = meanAgg (W2 m ρ c (Proc.devRef .tc main_v20)) (m ((c : Thread nD τ).loc main_arg1)) (m ((c : Thread nD τ).loc main_arg2)) := by
  show StableHlo.after hostOps1 (W2 m ρ c) (Proc.devRef .tc main_v39) = _
  after_results_simp
  rw [W2_arg1, W2_arg2]
  rfl

set_option maxHeartbeats 4000000 in
/-- The fifth window's array: the second bias as one row. -/
theorem V3_bias (c : Dev nD) : V3 m ρ c main_v40
    = shapeCast S1x128 (m ((c : Thread nD τ).loc main_arg8)) shapeCasts_S128_S1x128 := by
  show StableHlo.after hostOps1 (W2 m ρ c) (Proc.devRef .tc main_v40) = _
  after_results_simp
  rw [W2_arg8]
  rfl

end Cert.KernelIdeal.HostSide

end
-- ==== Proof.KernelWhole.lean ====
/-
  The kernel program's result as a function of its arguments.

  Chaining the pieces: the first region is entered with the input features, their aggregation, the first layer's
  weights and its bias as one row, so its result array — the hidden features — is the rectified first layer of the
  arguments. The second region is entered with the hidden features, their aggregation, the second layer's weights and
  bias, so the program's result is the second layer of the hidden features. A bias reshaped to one row and read back
  by column is the bias.
-/
import proofs.«181961_j51084341019062_1_alg».proof.Proof.KernelBlocks
import proofs.«181961_j51084341019062_1_alg».proof.Proof.KernelHost
import proofs.«181961_j51084341019062_1_alg».proof.Proof.KernelIdealRun

set_option maxRecDepth 16384

noncomputable section

open Idealize.ShloMosaic Idealize.ShloMosaic.TcCoe Idealize.SL.Sem

namespace Cert.KernelIdeal.Whole

open Cert.KernelIdeal Cert.KernelIdeal.Gen Cert.KernelIdeal.Blocks Cert.KernelIdeal.HostSide Cert.Sage
open Idealize.ShloMosaic.ValueIdx

variable (m : (ℓ : Loc nD τ sig) → Buf (Elt Ideal) ℓ) (ρ : Dev nD → PrngReg)

/-- A bias cast to one row and read back by column is the bias. -/
theorem biasRow_cast (b : (⟨S128, .f32⟩ : BufTy).Contents (Elt Ideal)) :
    biasRow (shapeCast S1x128 b shapeCasts_S128_S1x128) = b := by
  funext j
  obtain ⟨q, rfl⟩ : ∃ q : Fin 128, j = ix1 q := ⟨j 0, eq_ix1 j⟩
  show shapeCast S1x128 b shapeCasts_S128_S1x128 (ix2 (0 : Fin 1) q) = b (ix1 q)
  exact shapeCast_a_1a_apply b shapeCasts_S128_S1x128 0 q

/-- The hidden features: the rectified first layer of the arguments. -/
def hidden (c : Dev nD) : FVec Ideal SNodes .f32 :=
  denseRelu (m ((c : Thread nD τ).loc main_arg0)) (meanAgg (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))

/-- The program's result: the second layer of the hidden features. -/
def result (c : Dev nD) : FVec Ideal SNodes .f32 :=
  dense (hidden m c) (meanAgg (hidden m c) (m ((c : Thread nD τ).loc main_arg1)) (m ((c : Thread nD τ).loc main_arg2)))
    (m ((c : Thread nD τ).loc main_arg6)) (m ((c : Thread nD τ).loc main_arg7)) (m ((c : Thread nD τ).loc main_arg8))

/-- The first region leaves the hidden features in its result array. -/
theorem hidden_eq (c : Dev nD) : W2 m ρ c (Proc.devRef .tc main_v20) = hidden m c := by
  rw [W2_hidden, final0]
  show denseRelu (V1 m ρ c main_arg0) (V1 m ρ c main_v18) (V1 m ρ c main_arg3) (V1 m ρ c main_arg4) (biasRow (V1 m ρ c main_v19)) = _
  rw [V1_arg0, V1_agg, V1_arg3, V1_arg4, V1_bias, biasRow_cast]
  rfl

/-- The second region leaves the result. -/
theorem result_eq (c : Dev nD) : W4 m ρ c (Proc.devRef .tc main_v41) = result m c := by
  rw [show W4 m ρ c (Proc.devRef .tc main_v41) = (dat1 (V3 m ρ) c).arrAt 5 cfg1.N from W4_arr m ρ c 5, final1]
  show dense (V3 m ρ c main_v20) (V3 m ρ c main_v39) (V3 m ρ c main_arg6) (V3 m ρ c main_arg7) (biasRow (V3 m ρ c main_v40)) = _
  rw [V3_hidden, V3_agg, V3_arg6, V3_arg7, V3_bias, biasRow_cast, hidden_eq]
  rfl

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named m ρ)

end Cert.KernelIdeal.Whole

end
-- ==== Proof.RefLayers.lean ====
/-
  The reference program read as two dense layers over the mean aggregation.

  The reference computes, in order: the mean aggregation of the node features over incoming edges; the first
  layer `x · W1_self + agg(x) · W1_neigh + b1`; its rectification; the mean aggregation of that; and the
  second layer `h · W2_self + agg(h) · W2_neigh + b2`. Its two matrix products per layer are, on the extended
  reals, plain sums over the 128 input features, and the bias is added to every row. So the result array is
  `dense (denseRelu x (agg x) …) (agg (denseRelu x (agg x) …)) …` with the aggregation left as the
  reference's own term: it is never opened.
-/
import proofs.«181961_j51084341019062_1_alg».proof.Proof.Gen.ReferenceIdeal.Run
import proofs.«181961_j51084341019062_1_alg».proof.Proof.Gen.ReferenceIdeal.Read
import proofs.«181961_j51084341019062_1_alg».proof.Proof.DenseSpec

noncomputable section

namespace Cert.ReferenceIdeal.Layers

open Cert.ReferenceIdeal Cert.ReferenceIdeal.Gen Cert.ReferenceIdeal.Read
open Idealize.ShloMosaic Idealize.ShloMosaic.ValueIdx Cert.Sage

/-! ## How the stages nest: the second layer is the first one's operations on the rectified features -/

section Nesting
variable {F : FTy → Type} [FloatOps F]
variable (x0 : (⟨S100000x128, .f32⟩ : BufTy).Contents (Elt F)) (x1 x2 : (⟨S1600000, .i32⟩ : BufTy).Contents (Elt F))
  (x3 x4 : (⟨S128x128, .f32⟩ : BufTy).Contents (Elt F)) (x5 : (⟨S128, .f32⟩ : BufTy).Contents (Elt F))
  (x6 x7 : (⟨S128x128, .f32⟩ : BufTy).Contents (Elt F)) (x8 : (⟨S128, .f32⟩ : BufTy).Contents (Elt F))

/-- The first layer before rectification: self product plus the product of the aggregated features, plus the bias. -/
theorem layer1_nest : val_main_v24 (F := F) x0 x1 x2 x3 x4 x5
    = addf (addf (val_main_v19 (F := F) x0 x3) (val_main_v19 (F := F) (val_main_v18 (F := F) x0 x1 x2) x4)) (val_main_v23 (F := F) x5) := rfl

/-- The second aggregation is the first one's operations applied to the rectified first layer. -/
theorem agg2_nest : val_main_v44 (F := F) x0 x1 x2 x3 x4 x5
    = val_main_v18 (F := F) (val_main_v25 (F := F) x0 x1 x2 x3 x4 x5) x1 x2 := rfl

/-- The second layer: the same shape over the rectified first layer and its aggregation. -/
theorem layer2_nest : val_main_v50 (F := F) x0 x1 x2 x3 x4 x5 x6 x7 x8
    = addf (addf (val_main_v19 (F := F) (val_main_v25 (F := F) x0 x1 x2 x3 x4 x5) x6)
        (val_main_v19 (F := F) (val_main_v18 (F := F) (val_main_v25 (F := F) x0 x1 x2 x3 x4 x5) x1 x2) x7)) (val_main_v23 (F := F) x8) := rfl

end Nesting

/-! ## One layer on the extended reals -/

/-- Row r, feature k of the left operand. -/
theorem lidx_eq (r : Fin 100000) (j k : Fin 128) : lidx_main_v19 (ix2 r j) k = ix2 r k :=
  funext fun a => Fin.ext (by match a with | ⟨0, _⟩ => rfl | ⟨1, _⟩ => rfl)

/-- Feature k, output column j of the right operand. -/
theorem ridx_eq (r : Fin 100000) (j k : Fin 128) : ridx_main_v19 (ix2 r j) k = ix2 k j :=
  funext fun a => Fin.ext (by match a with | ⟨0, _⟩ => rfl | ⟨1, _⟩ => rfl)

/-- The bias entry a row-broadcast reads at column j. -/
theorem bidx_eq (r : Fin 100000) (j : Fin 128) : idx_main_v22 (idx_main_v23 (ix2 r j)) = ix1 j :=
  funext fun a => Fin.ext (by match a with | ⟨0, _⟩ => rfl)

/-- The reference's layer — two host matrix products, their sum, the broadcast bias — is `dense`. -/
theorem refDense_eq (x hn : (⟨S100000x128, .f32⟩ : BufTy).Contents (Elt Ideal)) (ws wn : (⟨S128x128, .f32⟩ : BufTy).Contents (Elt Ideal))
    (b : (⟨S128, .f32⟩ : BufTy).Contents (Elt Ideal)) :
    addf (addf (val_main_v19 (F := Ideal) x ws) (val_main_v19 (F := Ideal) hn wn)) (val_main_v23 (F := Ideal) b)
      = dense x hn ws wn b := by
  funext i
  obtain ⟨r, j, rfl⟩ : ∃ (r : Fin 100000) (j : Fin 128), i = ix2 r j := ⟨i 0, i 1, eq_ix2 i⟩
  rw [dense_apply]
  show (val_main_v19 (F := Ideal) x ws (ix2 r j) + val_main_v19 (F := Ideal) hn wn (ix2 r j)) + val_main_v23 (F := Ideal) b (ix2 r j) = _
  rw [val_main_v19_apply, val_main_v19_apply, val_main_v23_apply, val_main_v22_apply, bidx_eq]
  simp only [lidx_eq, ridx_eq]

/-- The reference's rectifier — the maximum with a broadcast zero word — entry by entry. -/
theorem refRelu_eq (y : FVec Ideal S100000x128 .f32) :
    maximumf (F := Ideal) (s := S100000x128) (φ := .f32) y (val_main_call0_v0 (F := Ideal)) = fun i => max (y i) (Ideal.ofBits .f32 0x00000000#32) := by
  funext i
  rw [maximumf_apply, val_main_call0_v0_apply, val_main_call0_cst_apply]
  rfl

/-! ## The reference's result -/

/-- What the reference returns, as the two layers over its own aggregation term. -/
theorem result_eq (m : (ℓ : Loc nD τ sig) → Buf (Elt Ideal) ℓ) (c : Dev nD) :
    Cert.ReferenceIdeal.Value.res_main_v50 (F := Ideal) m c
      = dense
          (denseRelu (m ((c.tc : Thread nD τ).loc main_arg0))
            (val_main_v18 (F := Ideal) (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)))
          (val_main_v18 (F := Ideal)
            (denseRelu (m ((c.tc : Thread nD τ).loc main_arg0))
              (val_main_v18 (F := Ideal) (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg2)))
          (m ((c.tc : Thread nD τ).loc main_arg6)) (m ((c.tc : Thread nD τ).loc main_arg7)) (m ((c.tc : Thread nD τ).loc main_arg8)) := by
  rw [val_main_v50_eq, layer2_nest]
  have h1 : val_main_v25 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      = denseRelu (m ((c.tc : Thread nD τ).loc main_arg0))
          (val_main_v18 (F := Ideal) (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)) := by
    show maximumf (F := Ideal) (s := S100000x128) (φ := .f32) (val_main_v24 (F := Ideal) _ _ _ _ _ _) (val_main_call0_v0 (F := Ideal)) = _
    rw [refRelu_eq, layer1_nest, refDense_eq]
    rfl
  rw [h1, refDense_eq]

end Cert.ReferenceIdeal.Layers

end
-- ==== Proof.lean ====
/-
  A two-layer GraphSAGE network with mean aggregation, its dense layers in two Pallas kernels, against the plain
  jnp reference: the two programs compute the same array on the extended reals.

  Both programs aggregate with the same host operations (gather the source rows, scatter-add into the destination
  rows, divide by the clamped in-degree), so the aggregation is one term `agg` on both sides and is never opened.
  A layer is `L(h) = (h · W_self + agg(h) · W_neigh) + b`; both programs return `L2(max(L1(x), 0))`.
  The kernel computes a layer 5000 rows at a time, rounding its operands to bf16 before the two matrix products;
  on the extended reals the rounding is the identity, a product into a zero accumulator is the plain sum over the 128
  contracted features, and a row of the layer depends on the same row of its inputs only, so the 20 row blocks
  assemble to the reference's whole-array layer. No law of arithmetic beyond reading both sides entry by entry is
  used, and the precondition is not needed.

  The frames of the two kernel programs are the generated ones; the reference's is its generated run. The ideal pass
  rewrote nothing, so `preserves` is trivial.
-/
import proofs.«181961_j51084341019062_1_alg».proof.Defs
import proofs.«181961_j51084341019062_1_alg».proof.Proof.Gen.Kernel
import proofs.«181961_j51084341019062_1_alg».proof.Proof.Gen.Kernel.Skeleton
import proofs.«181961_j51084341019062_1_alg».proof.Proof.Gen.Kernel.Launch
import proofs.«181961_j51084341019062_1_alg».proof.Proof.Gen.Kernel.Points
import proofs.«181961_j51084341019062_1_alg».proof.Proof.Gen.Kernel.Frame
import proofs.«181961_j51084341019062_1_alg».proof.Proof.Gen.KernelIdeal
import proofs.«181961_j51084341019062_1_alg».proof.Proof.Gen.KernelIdeal.Skeleton
import proofs.«181961_j51084341019062_1_alg».proof.Proof.Gen.KernelIdeal.Launch
import proofs.«181961_j51084341019062_1_alg».proof.Proof.Gen.KernelIdeal.Points
import proofs.«181961_j51084341019062_1_alg».proof.Proof.Gen.KernelIdeal.Frame
import proofs.«181961_j51084341019062_1_alg».proof.Proof.Gen.ReferenceIdeal
import proofs.«181961_j51084341019062_1_alg».proof.Proof.Gen.ReferenceIdeal.Run
import proofs.«181961_j51084341019062_1_alg».proof.Proof.Gen.ReferenceIdeal.Read
import proofs.«181961_j51084341019062_1_alg».proof.Proof.Gen.Pre_finite_inputs
import proofs.«181961_j51084341019062_1_alg».proof.Proof.KernelWhole
import proofs.«181961_j51084341019062_1_alg».proof.Proof.RefLayers
import Idealize.ShloMosaic.Adequacy
import Idealize.ShloMosaic.Init

noncomputable section

namespace Cert.Proof

open Idealize.ShloMosaic Idealize.SL.Sem

/-- The two programs aggregate by the same operations with the same constants: one function of the features and
    the two index arrays. -/
theorem agg_same {F : FTy → Type} [FloatOps F]
    (h : (⟨Cert.KernelIdeal.S100000x128, .f32⟩ : BufTy).Contents (Elt F))
    (src dst : (⟨Cert.KernelIdeal.S1600000, .i32⟩ : BufTy).Contents (Elt F)) :
    Cert.KernelIdeal.HostSide.meanAgg (F := F) h src dst = Cert.ReferenceIdeal.Read.val_main_v18 (F := F) h src dst := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel program ends with its result buffer at the second layer of
    the rectified first layer, and the reference ends with the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layers.result_eq]
  obtain ⟨e0, e1, e2, e3, e4, e5, e6, e7, e8⟩ := hagree c
  rw [e0, e1, e2, e3, e4, e5, e6, e7, e8]
  unfold Cert.KernelIdeal.Whole.result Cert.KernelIdeal.Whole.hidden
  simp only [agg_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
